-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 24
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S1x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x64, .f32⟩
  | .hbm, ⟨23, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S50000x64, .f32⟩
  | .hbm, ⟨45, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v19 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Spec.lean ====
/-
  The mathematics both programs compute, at the ideal values (extended reals), over the literal shapes.

  Stage one: every row of x goes through an affine map and a rectifier,
    hidden(p, q) = max(Σ_k x(p,k)·W1(k,q) + b1(q), 0).
  Stage two: every row of a goes through an affine map and a log-softmax over its 64 entries,
    logits(p, q) = Σ_k a(p,k)·W2(k,q) + b2(q),   out(p, q) = (logits(p,q) − M_p) − log Σ_j exp(logits(p,j) − M_p),
  with M_p the maximum of row p's logits (the fold of max from −∞).
  Both stages act on each row separately: that is what lets a program that works on blocks of rows and one that works on
  the whole array agree.
-/
import Idealize.ShloMosaic.Lib.ValueIdx
import Idealize.ShloMosaic.PureOps.Ideal.Laws
import Mathlib.Data.Finset.Fold

noncomputable section

open scoped BigOperators

namespace Cert.Spec

open Idealize.ShloMosaic Idealize.ShloMosaic.ValueIdx

/-- Σ_k u(k)·v(k) + β over 128 terms: one entry of an affine layer, from a row of the input and a column of the weights. -/
def affine (u v : Fin 128 → EReal) (β : EReal) : EReal := (∑ k : Fin 128, u k * v k) + β

/-- The rectifier: the larger of y and the value of the zero word. -/
def relu (y : EReal) : EReal := max y (Ideal.ofBits .f32 0x00000000#32)

/-- The maximum of 64 values, folded from the value of the −∞ word. -/
def rowMax (l : Fin 64 → EReal) : EReal :=
  (Finset.univ : Finset (Fin 64)).fold max (Ideal.ofBits .f32 0xFF800000#32) l

/-- Log-softmax of a row of 64 values at position q: shift by the row's maximum, then subtract the log of the
    sum of the shifted exponentials. -/
def logSoftmax (l : Fin 64 → EReal) (q : Fin 64) : EReal :=
  (l q - rowMax l) - Ideal.log (∑ j : Fin 64, Ideal.exp (l j - rowMax l))

/-- The fold of max from a value is at least that value, so taking the maximum with it again changes nothing. -/
theorem max_init_rowMax (l : Fin 64 → EReal) :
    max (Ideal.ofBits .f32 0xFF800000#32) (rowMax l) = rowMax l :=
  max_eq_right (by unfold rowMax; rw [Finset.le_fold_max]; exact Or.inl le_rfl)

/-- Over result row r of a reduction along the columns of an [R, C] array, the source index with column k inserted is (r, k). -/
theorem lift_row {R C : ℕ} (h : (⟨2, ![R, C]⟩ : Shape).Reduces [1] ⟨1, ![R]⟩) (r : Fin R) (k : Fin C) :
    h.lift (ix1 r) k = ix2 r k :=
  funext fun c => Fin.ext (by
    match c with
    | ⟨0, _⟩ => rfl
    | ⟨1, _⟩ => rfl)

/-- Stage one on the whole array: entry (p, q) from row p of x, column q of W1 and b1(q). -/
def hidden (x : (⟨2, ![50000, 128]⟩ : Shape).Idx → EReal) (w : (⟨2, ![128, 128]⟩ : Shape).Idx → EReal)
    (b : (⟨1, ![128]⟩ : Shape).Idx → EReal) : (⟨2, ![50000, 128]⟩ : Shape).Idx → EReal :=
  fun i => relu (affine (fun k => x (ix2 (i 0) k)) (fun k => w (ix2 k (i 1))) (b (ix1 (i 1))))

/-- The logits of stage two on the whole array. -/
def logits (a : (⟨2, ![50000, 128]⟩ : Shape).Idx → EReal) (w : (⟨2, ![128, 64]⟩ : Shape).Idx → EReal)
    (b : (⟨1, ![64]⟩ : Shape).Idx → EReal) (p : Fin 50000) (q : Fin 64) : EReal :=
  affine (fun k => a (ix2 p k)) (fun k => w (ix2 k q)) (b (ix1 q))

/-- Stage two on the whole array: entry (p, q) is the log-softmax of row p's logits at q. -/
def out (a : (⟨2, ![50000, 128]⟩ : Shape).Idx → EReal) (w : (⟨2, ![128, 64]⟩ : Shape).Idx → EReal)
    (b : (⟨1, ![64]⟩ : Shape).Idx → EReal) : (⟨2, ![50000, 64]⟩ : Shape).Idx → EReal :=
  fun i => logSoftmax (logits a w b (i 0)) (i 1)

theorem hidden_apply (x : (⟨2, ![50000, 128]⟩ : Shape).Idx → EReal) (w : (⟨2, ![128, 128]⟩ : Shape).Idx → EReal)
    (b : (⟨1, ![128]⟩ : Shape).Idx → EReal) (p : Fin 50000) (q : Fin 128) :
    hidden x w b (ix2 p q) = relu (affine (fun k => x (ix2 p k)) (fun k => w (ix2 k q)) (b (ix1 q))) := rfl

theorem out_apply (a : (⟨2, ![50000, 128]⟩ : Shape).Idx → EReal) (w : (⟨2, ![128, 64]⟩ : Shape).Idx → EReal)
    (b : (⟨1, ![64]⟩ : Shape).Idx → EReal) (p : Fin 50000) (q : Fin 64) :
    out a w b (ix2 p q) = logSoftmax (logits a w b p) q := rfl

end Cert.Spec

end
-- ==== Proof.KernelBodies.lean ====
/-
  The two kernel bodies' stored values, read at an index of the block, at the ideal values.

  Body one stores, at row r and column q of its 5000-row block,
    max(Σ_k xblock(r,k)·W1(k,q) + b1row(0,q), 0):
  the matrix product into a zero accumulator is the plain sum, the one-row bias is broadcast down the rows.
  Body two stores the log-softmax of the block's logits along each row: the lane maximum of row r is the fold of max over
  the row's 64 entries, the lane sum the sum over them, and the [5000] → [5000,1] → [5000,64] casts and broadcasts only
  carry row r's value to every column of row r. So each stored row depends on the same row of the input block only.
-/
import proofs.«105534_j79379585564874_1_alg».proof.Proof.Gen.KernelIdeal.Skeleton
import proofs.«105534_j79379585564874_1_alg».proof.Proof.LibOuterDot
import proofs.«105534_j79379585564874_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-! ## Keepdims columns: [R] → [R,1] → [R,C] -/

/-- A vector of R entries cast to one column: the column's entry in row r is the vector's entry r. -/
theorem col_cast_apply {R : ℕ} {α : Type} (v : (⟨1, ![R]⟩ : Shape).Idx → α)
    (h : (⟨1, ![R]⟩ : Shape).ShapeCasts ⟨2, ![R, 1]⟩) (r : Fin R) :
    shapeCast ⟨2, ![R, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- One column broadcast across C columns: entry (r, q) is the column's entry in row r. -/
theorem col_bcast_apply {R C : ℕ} {α : Type} (v : (⟨2, ![R, 1]⟩ : Shape).Idx → α)
    (h : (⟨2, ![R, 1]⟩ : Shape).Broadcasts ⟨2, ![R, C]⟩) (r : Fin R) (q : Fin C) :
    broadcastTo ⟨2, ![R, C]⟩ v h (ix2 r q) = v (ix2 r (0 : Fin 1)) := by
  refine broadcastTo_apply v h (ix2 r q) (ix2 r (0 : Fin 1)) fun ax => ?_
  match ax with
  | ⟨0, _⟩ =>
    show r.val = if R = 1 then 0 else r.val
    split
    · have := r.isLt; omega
    · rfl
  | ⟨1, _⟩ => rfl

/-! ## Body one -/

/-- Body one's stored value at (r, q): the rectified affine map of row r of the x block. -/
theorem pay0_apply (xb : Vec Ideal S5000x128 .f32) (wv : Vec Ideal S128x128 .f32) (bv : Vec Ideal S1x128 .f32)
    (r : Fin 5000) (q : Fin 128) :
    k0_pay1 (F := Ideal) xb wv bv (ix2 r q)
      = relu (affine (fun k => xb (ix2 r k)) (fun k => wv (ix2 k q)) (bv (ix2 (0 : Fin 1) q))) := by
  unfold k0_pay1 relu affine
  dsimp only
  rw [maximumf_apply, addf_apply,
    Cert.LibOuterDot.matmul_zero_ix2 dot_S5000x128_S128x128_S5000x128_1_0_0_1_n_n rfl rfl rfl rfl rfl rfl rfl rfl,
    broadcastTo_1b_ab_apply, shapeCast_self]
  rfl

/-! ## Body two -/

/-- The block's logits: the matrix product of the a block with W2 into a zero accumulator, plus the one-row bias
    broadcast down the rows. -/
def blockLogits (ab : Vec Ideal S5000x128 .f32) (wv : Vec Ideal S128x64 .f32) (bv : Vec Ideal S1x64 .f32) :
    FVec Ideal S5000x64 .f32 :=
  addf (matmul dot_S5000x128_S128x64_S5000x64_1_0_0_1_n_n none
      (truncf .bf16 (shapeCast S5000x128 ab shapeCasts_S5000x128_S5000x128) bitsLt_bf16_f32) (truncf .bf16 wv bitsLt_bf16_f32)
      (constant S5000x64 .f32 0x00000000#32))
    (broadcastTo S5000x64 (shapeCast S1x64 bv shapeCasts_S1x64_S1x64) broadcasts_S1x64_S5000x64)

theorem blockLogits_apply (ab : Vec Ideal S5000x128 .f32) (wv : Vec Ideal S128x64 .f32) (bv : Vec Ideal S1x64 .f32)
    (r : Fin 5000) (j : Fin 64) :
    blockLogits ab wv bv (ix2 r j) = affine (fun k => ab (ix2 r k)) (fun k => wv (ix2 k j)) (bv (ix2 (0 : Fin 1) j)) := by
  unfold blockLogits affine
  rw [addf_apply,
    Cert.LibOuterDot.matmul_zero_ix2 dot_S5000x128_S128x64_S5000x64_1_0_0_1_n_n rfl rfl rfl rfl rfl rfl rfl rfl,
    broadcastTo_1b_ab_apply, shapeCast_self, shapeCast_self]
  rfl

/-- The row maxima of a [5000, 64] vector, as the body takes them. -/
def rowsMax (l : FVec Ideal S5000x64 .f32) : FVec Ideal S5000 .f32 :=
  multiReduction .maximumf [1] S5000 l 0xFF800000#32 reduces_S5000x64_S5000 (.inl rfl) rfl

/-- The vector shifted by its row maxima. -/
def rowsShift (l : FVec Ideal S5000x64 .f32) : FVec Ideal S5000x64 .f32 :=
  subf l (broadcastTo S5000x64 (shapeCast S5000x1 (rowsMax l) shapeCasts_S5000_S5000x1) broadcasts_S5000x1_S5000x64)

/-- The row sums of the exponentials of a vector. -/
def rowsExpSum (z : FVec Ideal S5000x64 .f32) : FVec Ideal S5000 .f32 :=
  multiReduction .add [1] S5000 (exp z) 0x00000000#32 reduces_S5000x64_S5000 (.inl rfl) rfl

/-- Log-softmax along the rows, as the body computes it. -/
def rowsLsm (l : FVec Ideal S5000x64 .f32) : FVec Ideal S5000x64 .f32 :=
  subf (rowsShift l)
    (broadcastTo S5000x64 (log (shapeCast S5000x1 (rowsExpSum (rowsShift l)) shapeCasts_S5000_S5000x1)) broadcasts_S5000x1_S5000x64)

/-- Body two's stored value is the row-wise log-softmax of the block's logits. -/
theorem k1_pay1_eq (ab : Vec Ideal S5000x128 .f32) (wv : Vec Ideal S128x64 .f32) (bv : Vec Ideal S1x64 .f32) :
    k1_pay1 (F := Ideal) ab wv bv = rowsLsm (blockLogits ab wv bv) := rfl

theorem rowsMax_apply (l : FVec Ideal S5000x64 .f32) (r : Fin 5000) :
    rowsMax l (ix1 r) = rowMax (fun j => l (ix2 r j)) := by
  unfold rowsMax rowMax
  refine (Ideal.multiReduction_maximumf_single l 0xFF800000#32 reduces_S5000x64_S5000 (.inl rfl) rfl (ix1 r)).trans ?_
  exact congrArg (Finset.univ.fold max (Ideal.ofBits .f32 0xFF800000#32)) (funext fun k => congrArg l (lift_row _ r k))

theorem rowsShift_apply (l : FVec Ideal S5000x64 .f32) (r : Fin 5000) (j : Fin 64) :
    rowsShift l (ix2 r j) = l (ix2 r j) - rowMax (fun j => l (ix2 r j)) := by
  unfold rowsShift
  rw [subf_apply, col_bcast_apply, col_cast_apply, rowsMax_apply]

theorem rowsExpSum_apply (z : FVec Ideal S5000x64 .f32) (r : Fin 5000) :
    rowsExpSum z (ix1 r) = ∑ j : Fin 64, Ideal.exp (z (ix2 r j)) := by
  unfold rowsExpSum
  refine (Ideal.multiReduction_add_single (exp z) 0x00000000#32 reduces_S5000x64_S5000 (.inl rfl) rfl (ix1 r)).trans ?_
  exact Finset.sum_congr rfl fun k _ => congrArg (fun i => Ideal.exp (z i)) (lift_row _ r k)

theorem rowsLsm_apply (l : FVec Ideal S5000x64 .f32) (r : Fin 5000) (q : Fin 64) :
    rowsLsm l (ix2 r q) = logSoftmax (fun j => l (ix2 r j)) q := by
  unfold rowsLsm logSoftmax
  rw [subf_apply, col_bcast_apply]
  show rowsShift l (ix2 r q) - Ideal.log (shapeCast S5000x1 (rowsExpSum (rowsShift l)) shapeCasts_S5000_S5000x1 (ix2 r (0 : Fin 1))) = _
  rw [col_cast_apply, rowsExpSum_apply, rowsShift_apply]
  simp only [rowsShift_apply]

/-- Body two's stored value at (r, q): the log-softmax of row r's logits at q. -/
theorem pay1_apply (ab : Vec Ideal S5000x128 .f32) (wv : Vec Ideal S128x64 .f32) (bv : Vec Ideal S1x64 .f32)
    (r : Fin 5000) (q : Fin 64) :
    k1_pay1 (F := Ideal) ab wv bv (ix2 r q)
      = logSoftmax (fun j => affine (fun k => ab (ix2 r k)) (fun k => wv (ix2 k j)) (bv (ix2 (0 : Fin 1) j))) q := by
  rw [k1_pay1_eq, rowsLsm_apply]
  exact congrArg (fun f => logSoftmax f q) (funext fun j => blockLogits_apply ab wv bv r j)

end Cert.KernelIdeal.Body

end
-- ==== Proof.KernelValue.lean ====
/-
  The kernel program's two regions, each read as ONE whole-array function of the arrays it finds, at the ideal values.

  A region works through ten blocks of 5000 rows. At grid point t it reads rows 5000·t … 5000·t + 4999 of its first
  operand, the whole weight matrix and the one-row bias, and writes back rows 5000·t … 5000·t + 4999 of its result. Both
  bodies act on each row separately (the first an affine map and a rectifier, the second an affine map and a log-softmax
  along the row), so the block a point writes is the block of one function of the whole arrays: the specification's
  `hidden` for the first region and `out` for the second. The ten blocks cover the result array, so after the region it
  holds that function.
-/
import proofs.«105534_j79379585564874_1_alg».proof.Proof.Gen.KernelIdeal.Frame
import proofs.«105534_j79379585564874_1_alg».proof.Proof.KernelBodies
import Idealize.ShloMosaic.Lib.Pipeline.Value

set_option maxRecDepth 16384

noncomputable section

open scoped BigOperators

namespace Cert.KernelIdeal.KValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- A grid has ten points. -/
theorem lt10_0 (t : Fin cfg0.N) : t.val < 10 := lt_of_lt_of_eq t.isLt N_0
theorem lt10_1 (t : Fin cfg1.N) : t.val < 10 := lt_of_lt_of_eq t.isLt N_1

/-- Row r of block t is row 5000·t + r of the array. -/
abbrev row (t r : ℕ) (ht : t < 10) (hr : r < 5000) : Fin 50000 := ⟨5000 * t + r, by omega⟩

section Regions

variable (V : (c : Dev nD) → (b : Ref sig .tc) → Buf (Elt Ideal) ((c : Thread nD τ).loc b))

/-! ## Region one: the rectified affine layer -/

/-- The printed index maps over the grid: the x window and the result window are at block row t, the weights and the bias at
    block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the region's result array ends holding: `hidden` of the arrays as the region finds them (the bias read off its
    one-row array). -/
abbrev H0 (c : Dev nD) : (⟨2, ![50000, 128]⟩ : Shape).Idx → EReal :=
  hidden (V c main_arg0) (V c main_arg1) (fun i => V c main_v0 (ix2 (0 : Fin 1) (i 0)))

theorem xblk0 (c : Dev nD) (t : Fin cfg0.N) (r : Fin 5000) (k : Fin 128) :
    iblk0 V c 0 t (ix2 r k) = V c main_arg0 (ix2 (row t.val r.val (lt10_0 t) r.isLt) k) := by
  unfold iblk0
  rw [View.read_apply]
  refine congrArg (V c main_arg0) (funext fun a => Fin.ext ?_)
  match a with
  | ⟨0, _⟩ => show win0_0.index t (0 : Fin 2) * 5000 + 1 * r.val = 5000 * t.val + r.val; rw [(idx0 t).1]; omega
  | ⟨1, _⟩ => show win0_0.index t (1 : Fin 2) * 128 + 1 * k.val = k.val; rw [(idx0 t).2.1]; omega

theorem wblk0 (c : Dev nD) (t : Fin cfg0.N) (k q : Fin 128) :
    iblk0 V c 1 t (ix2 k q) = V c main_arg1 (ix2 k q) := by
  unfold iblk0
  rw [View.read_apply]
  refine congrArg (V c main_arg1) (funext fun a => Fin.ext ?_)
  match a with
  | ⟨0, _⟩ => show win0_1.index t (0 : Fin 2) * 128 + 1 * k.val = k.val; rw [(idx0 t).2.2.1]; omega
  | ⟨1, _⟩ => show win0_1.index t (1 : Fin 2) * 128 + 1 * q.val = q.val; rw [(idx0 t).2.2.2.1]; omega

theorem bblk0 (c : Dev nD) (t : Fin cfg0.N) (q : Fin 128) :
    iblk0 V c 2 t (ix2 (0 : Fin 1) q) = V c main_v0 (ix2 (0 : Fin 1) q) := by
  unfold iblk0
  rw [View.read_apply]
  refine congrArg (V c main_v0) (funext fun a => Fin.ext ?_)
  match a with
  | ⟨0, _⟩ => show win0_2.index t (0 : Fin 2) * 1 + 1 * 0 = 0; rw [(idx0 t).2.2.2.2.1]
  | ⟨1, _⟩ => show win0_2.index t (1 : Fin 2) * 128 + 1 * q.val = q.val; rw [(idx0 t).2.2.2.2.2.1]; omega

/-- Point t writes back block t of `H0`. -/
theorem flushed0 (c : Dev nD) (t : Fin cfg0.N) :
    (dat0 V c).flushed 3 t = ((cfg0.win 3).blk t).view.read (Elt Ideal) (H0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  have h0 : (j 0).val < 5000 := (j 0).isLt
  have h1 : (j 1).val < 128 := (j 1).isLt
  obtain ⟨r, q, rfl⟩ : ∃ (r : Fin 5000) (q : Fin 128), j = ix2 r q :=
    ⟨⟨_, h0⟩, ⟨_, h1⟩, funext fun a => Fin.ext (by match a with | ⟨0, _⟩ => rfl | ⟨1, _⟩ => rfl)⟩
  show k0_pay1 (F := Ideal) (iblk0 V c 0 t) (iblk0 V c 1 t) (iblk0 V c 2 t) (ix2 r q)
    = H0 V c (((cfg0.win 3).blk t).view.emb (ix2 r q))
  refine (Body.pay0_apply (iblk0 V c 0 t) (iblk0 V c 1 t) (iblk0 V c 2 t) r q).trans ?_
  have e : ((cfg0.win 3).blk t).view.emb (ix2 r q) = ix2 (row t.val r.val (lt10_0 t) r.isLt) q :=
    funext fun a => Fin.ext (by
      match a with
      | ⟨0, _⟩ => show win0_3.index t (0 : Fin 2) * 5000 + 1 * r.val = 5000 * t.val + r.val; rw [(idx0 t).2.2.2.2.2.2.1]; omega
      | ⟨1, _⟩ => show win0_3.index t (1 : Fin 2) * 128 + 1 * q.val = q.val; rw [(idx0 t).2.2.2.2.2.2.2]; omega)
  rw [e]
  unfold H0
  rw [hidden_apply]
  have hx : (fun k => iblk0 V c 0 t (ix2 r k)) = fun k => V c main_arg0 (ix2 (row t.val r.val (lt10_0 t) r.isLt) k) :=
    funext fun k => xblk0 V c t r k
  have hw : (fun k => iblk0 V c 1 t (ix2 k q)) = fun k => V c main_arg1 (ix2 k q) := funext fun k => wblk0 V c t k q
  rw [hx, hw, bblk0]

/-- Every row of the result array lies in the block of the point its row number, divided by 5000, names. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_3 _, ?_⟩
  show i ∈ ((View.whole main_v1).slice (win0_3.rect ⟨(i 0).val / 5000, hN⟩)).set
  rw [View.set_slice_whole, Rect.mem_set_unit]
  obtain ⟨-, -, -, -, -, -, e0, e1⟩ := idx0 ⟨(i 0).val / 5000, hN⟩
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [e1]; omega

/-- The first region's result array after the region. -/
theorem final0 (c : Dev nD) : (dat0 V c).arrAt 3 cfg0.N = H0 V c :=
  (dat0 V c).arrAt_eq_of_cover 3 (H0 V c) (fun t _ => flushed0 V c t) cover0

/-! ## Region two: the affine layer and the log-softmax along rows -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the region's result array ends holding: `out` of the arrays as the region finds them. -/
abbrev H1 (c : Dev nD) : (⟨2, ![50000, 64]⟩ : Shape).Idx → EReal :=
  out (V c main_v11) (V c main_arg3) (fun i => V c main_v12 (ix2 (0 : Fin 1) (i 0)))

theorem ablk1 (c : Dev nD) (t : Fin cfg1.N) (r : Fin 5000) (k : Fin 128) :
    iblk1 V c 0 t (ix2 r k) = V c main_v11 (ix2 (row t.val r.val (lt10_1 t) r.isLt) k) := by
  unfold iblk1
  rw [View.read_apply]
  refine congrArg (V c main_v11) (funext fun a => Fin.ext ?_)
  match a with
  | ⟨0, _⟩ => show win1_0.index t (0 : Fin 2) * 5000 + 1 * r.val = 5000 * t.val + r.val; rw [(idx1 t).1]; omega
  | ⟨1, _⟩ => show win1_0.index t (1 : Fin 2) * 128 + 1 * k.val = k.val; rw [(idx1 t).2.1]; omega

theorem wblk1 (c : Dev nD) (t : Fin cfg1.N) (k : Fin 128) (q : Fin 64) :
    iblk1 V c 1 t (ix2 k q) = V c main_arg3 (ix2 k q) := by
  unfold iblk1
  rw [View.read_apply]
  refine congrArg (V c main_arg3) (funext fun a => Fin.ext ?_)
  match a with
  | ⟨0, _⟩ => show win1_1.index t (0 : Fin 2) * 128 + 1 * k.val = k.val; rw [(idx1 t).2.2.1]; omega
  | ⟨1, _⟩ => show win1_1.index t (1 : Fin 2) * 64 + 1 * q.val = q.val; rw [(idx1 t).2.2.2.1]; omega

theorem bblk1 (c : Dev nD) (t : Fin cfg1.N) (q : Fin 64) :
    iblk1 V c 2 t (ix2 (0 : Fin 1) q) = V c main_v12 (ix2 (0 : Fin 1) q) := by
  unfold iblk1
  rw [View.read_apply]
  refine congrArg (V c main_v12) (funext fun a => Fin.ext ?_)
  match a with
  | ⟨0, _⟩ => show win1_2.index t (0 : Fin 2) * 1 + 1 * 0 = 0; rw [(idx1 t).2.2.2.2.1]
  | ⟨1, _⟩ => show win1_2.index t (1 : Fin 2) * 64 + 1 * q.val = q.val; rw [(idx1 t).2.2.2.2.2.1]; omega

/-- Point t writes back block t of `H1`. -/
theorem flushed1 (c : Dev nD) (t : Fin cfg1.N) :
    (dat1 V c).flushed 3 t = ((cfg1.win 3).blk t).view.read (Elt Ideal) (H1 V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S1x64) hz]
  funext j
  have h0 : (j 0).val < 5000 := (j 0).isLt
  have h1 : (j 1).val < 64 := (j 1).isLt
  obtain ⟨r, q, rfl⟩ : ∃ (r : Fin 5000) (q : Fin 64), j = ix2 r q :=
    ⟨⟨_, h0⟩, ⟨_, h1⟩, funext fun a => Fin.ext (by match a with | ⟨0, _⟩ => rfl | ⟨1, _⟩ => rfl)⟩
  show k1_pay1 (F := Ideal) (iblk1 V c 0 t) (iblk1 V c 1 t) (iblk1 V c 2 t) (ix2 r q)
    = H1 V c (((cfg1.win 3).blk t).view.emb (ix2 r q))
  refine (Body.pay1_apply (iblk1 V c 0 t) (iblk1 V c 1 t) (iblk1 V c 2 t) r q).trans ?_
  have e : ((cfg1.win 3).blk t).view.emb (ix2 r q) = ix2 (row t.val r.val (lt10_1 t) r.isLt) q :=
    funext fun a => Fin.ext (by
      match a with
      | ⟨0, _⟩ => show win1_3.index t (0 : Fin 2) * 5000 + 1 * r.val = 5000 * t.val + r.val; rw [(idx1 t).2.2.2.2.2.2.1]; omega
      | ⟨1, _⟩ => show win1_3.index t (1 : Fin 2) * 64 + 1 * q.val = q.val; rw [(idx1 t).2.2.2.2.2.2.2]; omega)
  rw [e]
  unfold H1
  rw [out_apply]
  refine congrArg (fun f => logSoftmax f q) (funext fun j => ?_)
  unfold logits
  have hx : (fun k => iblk1 V c 0 t (ix2 r k)) = fun k => V c main_v11 (ix2 (row t.val r.val (lt10_1 t) r.isLt) k) :=
    funext fun k => ablk1 V c t r k
  have hw : (fun k => iblk1 V c 1 t (ix2 k j)) = fun k => V c main_arg3 (ix2 k j) := funext fun k => wblk1 V c t k j
  rw [hx, hw, bblk1]

theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 5000 < cfg1.N := by rw [show cfg1.N = 10 from N_1]; omega
  refine ⟨⟨(i 0).val / 5000, hN⟩, flush1_3 _, ?_⟩
  show i ∈ ((View.whole main_v13).slice (win1_3.rect ⟨(i 0).val / 5000, hN⟩)).set
  rw [View.set_slice_whole, Rect.mem_set_unit]
  obtain ⟨-, -, -, -, -, -, e0, e1⟩ := idx1 ⟨(i 0).val / 5000, hN⟩
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, hN⟩ (1 : Fin 2) * 64 ≤ (i 1).val
      ∧ (i 1).val < win1_3.index ⟨(i 0).val / 5000, hN⟩ (1 : Fin 2) * 64 + 64
    rw [e1]; omega

/-- The second region's result array after the region. -/
theorem final1 (c : Dev nD) : (dat1 V c).arrAt 3 cfg1.N = H1 V c :=
  (dat1 V c).arrAt_eq_of_cover 3 (H1 V c) (fun t _ => flushed1 V c t) cover1

end Regions

end Cert.KernelIdeal.KValue

end
-- ==== Proof.KernelResult.lean ====
/-
  The kernel program's result array as one function of its arguments, at the ideal values.

  Between the two regions the program runs host operations on whole arrays: before the first region the bias b1 is
  reshaped to one row; between the regions negative source indices are wrapped by 50000, the rows of the first region's
  result are gathered at them and scattered by addition into a zero array at the destination indices, and the bias b2 is
  reshaped to one row. None of these writes an argument. Following the buffer contents from the launch through the four
  segments: the first region leaves `hidden x W1 b1`; the host stretch leaves the aggregation of it over the edges; the
  second region leaves `out` of that, W2 and b2.
-/
import proofs.«105534_j79379585564874_1_alg».proof.Proof.KernelValue
import proofs.«105534_j79379585564874_1_alg».proof.Proof.KernelNamed
import Idealize.ShloMosaic.Lib.ValueLayout
import Idealize.ShloMosaic.Lib.StableHlo.Run

set_option maxRecDepth 16384

noncomputable section

open scoped BigOperators

namespace Cert.KernelIdeal.KValue

open Cert.KernelIdeal Cert.KernelIdeal.Gen Cert.Spec
open Idealize.ShloMosaic Idealize.ShloMosaic.TcCoe Idealize.ShloMosaic.ValueIdx Idealize.SL.Sem
open Idealize.ShloMosaic.StableHlo

/-- The aggregation over edges of an array h of 50000 rows, as the kernel program's host operations compute it: one
    fixed function of h, the source and the destination indices. -/
def aggK {F : FTy → Type} [FloatOps F] (h : (⟨S50000x128, .f32⟩ : BufTy).Contents (Elt F)) (x5 x6 : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x6)
    (Host.gather gather_S50000x128_S800000x1_S800000x128_1_0_n_n_0_1_1128 h
      (broadcastInDim S800000x1 ![0] bcast_S800000_S800000x1_0
        (select (cmpi .slt x5 (broadcastInDim S800000 ![] bcast_S_S800000 (constantI S_ 32 0#32)))
          (addi x5 (broadcastInDim S800000 ![] bcast_S_S800000 (constantI S_ 32 50000#32))) x5)))

/-! ## The two host stretches, from any contents -/

section Stretches

variable {F : FTy → Type} [FloatOps F] (U : Valuation τ sig (Elt F))

theorem h0_v0 : after hostOps0 U (Proc.devRef .tc main_v0)
    = (shapeCast S1x128 (U (Proc.devRef .tc main_arg2)) shapeCasts_S128_S1x128 : (⟨S1x128, .f32⟩ : BufTy).Contents (Elt F)) := by
  after_results_simp <;> rfl
theorem h0_arg0 : after hostOps0 U (Proc.devRef .tc main_arg0) = U (Proc.devRef .tc main_arg0) := by after_results_simp <;> rfl
theorem h0_arg1 : after hostOps0 U (Proc.devRef .tc main_arg1) = U (Proc.devRef .tc main_arg1) := by after_results_simp <;> rfl
theorem h0_arg3 : after hostOps0 U (Proc.devRef .tc main_arg3) = U (Proc.devRef .tc main_arg3) := by after_results_simp <;> rfl
theorem h0_arg4 : after hostOps0 U (Proc.devRef .tc main_arg4) = U (Proc.devRef .tc main_arg4) := by after_results_simp <;> rfl
theorem h0_arg5 : after hostOps0 U (Proc.devRef .tc main_arg5) = U (Proc.devRef .tc main_arg5) := by after_results_simp <;> rfl
theorem h0_arg6 : after hostOps0 U (Proc.devRef .tc main_arg6) = U (Proc.devRef .tc main_arg6) := by after_results_simp <;> rfl

theorem h1_v11 : after hostOps1 U (Proc.devRef .tc main_v11)
    = aggK (U (Proc.devRef .tc main_v1)) (U (Proc.devRef .tc main_arg5)) (U (Proc.devRef .tc main_arg6)) := by
  after_results_simp <;> rfl
theorem h1_v12 : after hostOps1 U (Proc.devRef .tc main_v12)
    = (shapeCast S1x64 (U (Proc.devRef .tc main_arg4)) shapeCasts_S64_S1x64 : (⟨S1x64, .f32⟩ : BufTy).Contents (Elt F)) := by
  after_results_simp <;> rfl
theorem h1_arg3 : after hostOps1 U (Proc.devRef .tc main_arg3) = U (Proc.devRef .tc main_arg3) := by after_results_simp <;> rfl

end Stretches

/-! ## The buffers at the segment boundaries of the run -/

section Run

variable (m : (ℓ : Loc nD τ sig) → Buf (Elt Ideal) ℓ) (ρ : Dev nD → PrngReg)

/-- A one-row array that is the reshape of a vector, read along its row, is the vector. -/
theorem row_of_reshape {n : ℕ} (x : (⟨1, ![n]⟩ : Shape).Idx → EReal) (h : (⟨1, ![n]⟩ : Shape).ShapeCasts ⟨2, ![1, n]⟩) :
    (fun i : (⟨1, ![n]⟩ : Shape).Idx => shapeCast ⟨2, ![1, n]⟩ x h (ix2 (0 : Fin 1) (i 0))) = x :=
  funext fun i => (shapeCast_a_1a_apply x h 0 (i 0)).trans (congrArg x (eq_ix1 i).symm)

/-- At the first region's entry the arguments are as launched and the bias row is b1 reshaped. -/
theorem V1_arg0 (c : Dev nD) : V1 m ρ c main_arg0 = m ((c : Thread nD τ).loc main_arg0) := (h0_arg0 (W0 m ρ c)).trans rfl
theorem V1_arg1 (c : Dev nD) : V1 m ρ c main_arg1 = m ((c : Thread nD τ).loc main_arg1) := (h0_arg1 (W0 m ρ c)).trans rfl
theorem V1_v0 (c : Dev nD) : V1 m ρ c main_v0
    = (shapeCast S1x128 (m ((c : Thread nD τ).loc main_arg2)) shapeCasts_S128_S1x128 : (⟨S1x128, .f32⟩ : BufTy).Contents (Elt Ideal)) :=
  (h0_v0 (W0 m ρ c)).trans rfl

/-- After the first region its result array holds `hidden x W1 b1`. -/
theorem W2_v1 (c : Dev nD) : W2 m ρ c (Proc.devRef .tc main_v1)
    = hidden (m ((c : Thread nD τ).loc main_arg0)) (m ((c : Thread nD τ).loc main_arg1)) (m ((c : Thread nD τ).loc main_arg2)) := by
  refine (W2_arr m ρ c 3).trans ((final0 (V1 m ρ) c).trans ?_)
  show hidden (V1 m ρ c main_arg0) (V1 m ρ c main_arg1) (fun i => V1 m ρ c main_v0 (ix2 (0 : Fin 1) (i 0))) = _
  rw [V1_arg0, V1_arg1, V1_v0, row_of_reshape]

/-- The other buffers the second stretch and the second region read are as launched at the first region's exit. -/
theorem W2_arg3 (c : Dev nD) : W2 m ρ c (Proc.devRef .tc main_arg3) = m ((c : Thread nD τ).loc main_arg3) :=
  (W2_of_ne m ρ c main_arg3 (by decide)).trans ((h0_arg3 (W0 m ρ c)).trans rfl)
theorem W2_arg4 (c : Dev nD) : W2 m ρ c (Proc.devRef .tc main_arg4) = m ((c : Thread nD τ).loc main_arg4) :=
  (W2_of_ne m ρ c main_arg4 (by decide)).trans ((h0_arg4 (W0 m ρ c)).trans rfl)
theorem W2_arg5 (c : Dev nD) : W2 m ρ c (Proc.devRef .tc main_arg5) = m ((c : Thread nD τ).loc main_arg5) :=
  (W2_of_ne m ρ c main_arg5 (by decide)).trans ((h0_arg5 (W0 m ρ c)).trans rfl)
theorem W2_arg6 (c : Dev nD) : W2 m ρ c (Proc.devRef .tc main_arg6) = m ((c : Thread nD τ).loc main_arg6) :=
  (W2_of_ne m ρ c main_arg6 (by decide)).trans ((h0_arg6 (W0 m ρ c)).trans rfl)

/-- The value the kernel program computes. -/
abbrev resultK (c : Dev nD) : (⟨2, ![50000, 64]⟩ : Shape).Idx → EReal :=
  out (aggK (hidden (m ((c : Thread nD τ).loc main_arg0)) (m ((c : Thread nD τ).loc main_arg1)) (m ((c : Thread nD τ).loc main_arg2)))
      (m ((c : Thread nD τ).loc main_arg5)) (m ((c : Thread nD τ).loc main_arg6)))
    (m ((c : Thread nD τ).loc main_arg3)) (m ((c : Thread nD τ).loc main_arg4))

/-- After the second region the result array holds it. -/
theorem W4_v13 (c : Dev nD) : W4 m ρ c (Proc.devRef .tc main_v13) = resultK m c := by
  refine (W4_arr m ρ c 3).trans ((final1 (V3 m ρ) c).trans ?_)
  show out (V3 m ρ c main_v11) (V3 m ρ c main_arg3) (fun i => V3 m ρ c main_v12 (ix2 (0 : Fin 1) (i 0))) = _
  have e11 : V3 m ρ c main_v11 = aggK (hidden (m ((c : Thread nD τ).loc main_arg0)) (m ((c : Thread nD τ).loc main_arg1)) (m ((c : Thread nD τ).loc main_arg2)))
      (m ((c : Thread nD τ).loc main_arg5)) (m ((c : Thread nD τ).loc main_arg6)) := by
    refine (h1_v11 (W2 m ρ c)).trans ?_
    rw [W2_v1, W2_arg5, W2_arg6]
  have e3 : V3 m ρ c main_arg3 = m ((c : Thread nD τ).loc main_arg3) := (h1_arg3 (W2 m ρ c)).trans (W2_arg3 m ρ c)
  have e12 : V3 m ρ c main_v12
      = (shapeCast S1x64 (m ((c : Thread nD τ).loc main_arg4)) shapeCasts_S64_S1x64 : (⟨S1x64, .f32⟩ : BufTy).Contents (Elt Ideal)) := by
    refine (h1_v12 (W2 m ρ c)).trans ?_
    rw [W2_arg4]
  rw [e11, e3, e12, row_of_reshape]

/-- The kernel program's run with its result named: every weakly fair execution terminates, nothing faulting, with the
    result array at `resultK` of the arguments and the arguments unchanged. -/
theorem run_value : θ_run defs (onTc (τ := τ) (main (F := Ideal))) ⟨m, fun _ => 0, ρ⟩ (fun r => ∀ c : Dev nD,
      r.2.mem ((c.tc : Thread nD τ).loc main_v13) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W4_v13 m ρ c), (h c).2⟩) (Cert.KernelIdeal.Named.run_named m ρ)

end Run

end Cert.KernelIdeal.KValue

end
-- ==== Proof.RefValue.lean ====
/-
  What the reference computes, in four stretches of its operations, and that value read index by index.

  The reference runs 39 host operations in a row. They fall into four stretches, each a function of a few earlier values:
    (1) the rectified affine layer of x: h = max(x·W1 + b1, 0);
    (2) the aggregation over edges: negative source indices wrapped by 50000, the rows of h gathered at them, and scattered
        by addition into a zero array at the destination indices — one fixed function of h, the sources and the destinations;
    (3) the logits a·W2 + b2 of the aggregated array a;
    (4) the log-softmax of the logits along each row.
  The contents of the result buffer after all operations is the composition of the four, whatever the buffers held at launch.
  Read at an index, (1) is the first stage of the specification, and (3)–(4) the second stage applied to the array (2) leaves.
-/
import proofs.«105534_j79379585564874_1_alg».proof.Proof.RefReadP
import proofs.«105534_j79379585564874_1_alg».proof.Proof.Spec
import Idealize.ShloMosaic.Lib.Pipeline.Frame
import Idealize.ShloMosaic.PureOps.Reduce

noncomputable section

open scoped BigOperators

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The four stretches of the operation list -/

/-- Operations 1–7: the rectified affine layer, into `main_v4`. -/
abbrev opsA : List (HloOp τ sig (Elt F)) :=
  [ binary main_arg0 main_arg1 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v3) (TRef.of (T := ⟨S50000x128, .f32⟩) main_call0_v0) (TRef.of (T := ⟨S50000x128, .f32⟩) main_v4) maximumf ]

/-- Operations 8–20: the aggregation over edges, from `main_v4` into `main_v14`. -/
abbrev opsB : List (HloOp τ sig (Elt F)) :=
  [ nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_arg5 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_arg5 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_arg5 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_v4 main_v10 main_v11 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg6 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 21–24: the logits, from `main_v14` into `main_v18`. -/
abbrev opsC : List (HloOp τ sig (Elt F)) :=
  [ binary main_v14 main_arg3 main_v15 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)) ]

/-- Operations 25–39: the log-softmax along rows, from `main_v18` into `main_v19`. -/
abbrev opsD : List (HloOp τ sig (Elt F)) :=
  [ TRef.nullary (TRef.of (T := ⟨S_, .f32⟩) main_call1_cst) (constant S_ .f32 0xFF800000#32),
    TRef.binary (TRef.of (T := ⟨S50000x64, .f32⟩) main_v18) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v18) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v19) subf ]

/-- The same fifteen operations with each buffer named directly: an operation over a typed reference only carries its
    operand and result through a change of type that is the identity. -/
abbrev opsD' : List (HloOp τ sig (Elt F)) :=
  [ nullary main_call1_cst ((constant S_ .f32 0xFF800000#32) : (⟨S_, .f32⟩ : BufTy).Contents (Elt F)),
    binary main_v18 main_call1_cst main_call1_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_call1_cst_0 ((constant S_ .f32 0xFF800000#32) : (⟨S_, .f32⟩ : BufTy).Contents (Elt F)),
    unary main_call1_cst_0 main_call1_v1 ((broadcastInDim S50000 ![] bcast_S_S50000) : (⟨S_, .f32⟩ : BufTy).Contents (Elt F) → (⟨S50000, .f32⟩ : BufTy).Contents (Elt F)),
    binary main_call1_v1 main_call1_v0 main_call1_v2 (maximumf : (⟨S50000, .f32⟩ : BufTy).Contents (Elt F) → (⟨S50000, .f32⟩ : BufTy).Contents (Elt F) → (⟨S50000, .f32⟩ : BufTy).Contents (Elt F)),
    unary main_call1_v2 main_call1_v3 ((broadcastInDim S50000x1 ![0] bcast_S50000_S50000x1_0) : (⟨S50000, .f32⟩ : BufTy).Contents (Elt F) → (⟨S50000x1, .f32⟩ : BufTy).Contents (Elt F)),
    unary main_call1_v3 main_call1_v4 ((broadcastInDim S50000x64 ![0, 1] bcast_S50000x1_S50000x64_0_1) : (⟨S50000x1, .f32⟩ : BufTy).Contents (Elt F) → (⟨S50000x64, .f32⟩ : BufTy).Contents (Elt F)),
    binary main_v18 main_call1_v4 main_call1_v5 (subf : (⟨S50000x64, .f32⟩ : BufTy).Contents (Elt F) → (⟨S50000x64, .f32⟩ : BufTy).Contents (Elt F) → (⟨S50000x64, .f32⟩ : BufTy).Contents (Elt F)),
    unary main_call1_v5 main_call1_v6 (Host.exp : (⟨S50000x64, .f32⟩ : BufTy).Contents (Elt F) → (⟨S50000x64, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call1_v7 main_call1_v8 ((broadcastInDim S50000x1 ![0] bcast_S50000_S50000x1_0) : (⟨S50000, .f32⟩ : BufTy).Contents (Elt F) → (⟨S50000x1, .f32⟩ : BufTy).Contents (Elt F)),
    unary main_call1_v8 main_call1_v9 (Host.log : (⟨S50000x1, .f32⟩ : BufTy).Contents (Elt F) → (⟨S50000x1, .f32⟩ : BufTy).Contents (Elt F)),
    unary main_call1_v9 main_call1_v10 ((broadcastInDim S50000x64 ![0, 1] bcast_S50000x1_S50000x64_0_1) : (⟨S50000x1, .f32⟩ : BufTy).Contents (Elt F) → (⟨S50000x64, .f32⟩ : BufTy).Contents (Elt F)),
    binary main_call1_v5 main_call1_v10 main_v19 (subf : (⟨S50000x64, .f32⟩ : BufTy).Contents (Elt F) → (⟨S50000x64, .f32⟩ : BufTy).Contents (Elt F) → (⟨S50000x64, .f32⟩ : BufTy).Contents (Elt F)) ]

/-- The one operation whose function is a reduce over the whole array: stated for ANY function, so that the
    equality is only about the typed references. -/
theorem op_reduce_eq (g : (⟨S50000x64, .f32⟩ : BufTy).Contents (Elt F) → (⟨S_, .f32⟩ : BufTy).Contents (Elt F) → (⟨S50000, .f32⟩ : BufTy).Contents (Elt F)) :
    (TRef.binary (TRef.of (T := ⟨S50000x64, .f32⟩) main_v18) (TRef.of (T := ⟨S_, .f32⟩) main_call1_cst) (TRef.of (T := ⟨S50000, .f32⟩) main_call1_v0) g : HloOp τ sig (Elt F))
      = binary main_v18 main_call1_cst main_call1_v0 g := rfl

theorem opsD_eq : (opsD : List (HloOp τ sig (Elt F))) = opsD' :=
  congrArg₂ List.cons rfl (congrArg₂ List.cons (op_reduce_eq _) rfl)

theorem ops_split : (ops : List (HloOp τ sig (Elt F))) = opsA ++ (opsB ++ (opsC ++ opsD)) := rfl

/-! ## Each stretch's value as one function of what it reads -/

/-- The aggregation over edges of an array h of 50000 rows: one fixed function of h, the source and the destination indices. -/
def aggOf (h : (⟨S50000x128, .f32⟩ : BufTy).Contents (Elt F)) (x5 x6 : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x6)
    (Host.gather gather_S50000x128_S800000x1_S800000x128_1_0_n_n_0_1_1128 h
      (broadcastInDim S800000x1 ![0] bcast_S800000_S800000x1_0
        (select (cmpi .slt x5 (broadcastInDim S800000 ![] bcast_S_S800000 (constantI S_ 32 0#32)))
          (addi x5 (broadcastInDim S800000 ![] bcast_S_S800000 (constantI S_ 32 50000#32))) x5)))

/-- The logits of an array a: a·W2 + b2. -/
def logitsOf (a : (⟨S50000x128, .f32⟩ : BufTy).Contents (Elt F)) (x3 : (⟨S128x64, .f32⟩ : BufTy).Contents (Elt F))
    (x4 : (⟨S64, .f32⟩ : BufTy).Contents (Elt F)) : (⟨S50000x64, .f32⟩ : BufTy).Contents (Elt F) :=
  addf (Host.dotGeneral dot_S50000x128_S128x64_S50000x64_1_0_0_1_n_n none a x3)
    (broadcastInDim S50000x64 ![0, 1] bcast_S1x64_S50000x64_0_1 (broadcastInDim S1x64 ![1] bcast_S64_S1x64_1 x4))

/-- The row maxima the reference takes: the reduce from −∞, then once more the maximum with −∞. -/
def maxOf (l : (⟨S50000x64, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf l (constant S_ .f32 0xFF800000#32) reducesTo_S50000x64_S50000_d1 h_S_)

/-- The logits shifted by their row maxima. -/
def shiftOf (l : (⟨S50000x64, .f32⟩ : BufTy).Contents (Elt F)) : (⟨S50000x64, .f32⟩ : BufTy).Contents (Elt F) :=
  subf l (broadcastInDim S50000x64 ![0, 1] bcast_S50000x1_S50000x64_0_1 (broadcastInDim S50000x1 ![0] bcast_S50000_S50000x1_0 (maxOf l)))

/-- The log-softmax along rows, as the reference computes it. -/
def lsmOf (l : (⟨S50000x64, .f32⟩ : BufTy).Contents (Elt F)) : (⟨S50000x64, .f32⟩ : BufTy).Contents (Elt F) :=
  subf (shiftOf l)
    (broadcastInDim S50000x64 ![0, 1] bcast_S50000x1_S50000x64_0_1
      (Host.log (broadcastInDim S50000x1 ![0] bcast_S50000_S50000x1_0
        (Host.reduceAdd (Host.exp (shiftOf l)) (constant S_ .f32 0x00000000#32) reducesTo_S50000x64_S50000_d1 h_S_))))

/-- The generated stages are these functions composed (every step a definition unfolding). -/
theorem val14_eq (x0 : (⟨S50000x128, .f32⟩ : BufTy).Contents (Elt F)) (x1 : (⟨S128x128, .f32⟩ : BufTy).Contents (Elt F))
    (x2 : (⟨S128, .f32⟩ : BufTy).Contents (Elt F)) (x5 x6 : (⟨S800000, .i32⟩ : BufTy).Contents (Elt F)) :
    val_main_v14 (F := F) x0 x1 x2 x5 x6 = aggOf (val_main_v4 (F := F) x0 x1 x2) x5 x6 := rfl

theorem val18_eq (x0 : (⟨S50000x128, .f32⟩ : BufTy).Contents (Elt F)) (x1 : (⟨S128x128, .f32⟩ : BufTy).Contents (Elt F))
    (x2 : (⟨S128, .f32⟩ : BufTy).Contents (Elt F)) (x3 : (⟨S128x64, .f32⟩ : BufTy).Contents (Elt F))
    (x4 : (⟨S64, .f32⟩ : BufTy).Contents (Elt F)) (x5 x6 : (⟨S800000, .i32⟩ : BufTy).Contents (Elt F)) :
    val_main_v18 (F := F) x0 x1 x2 x3 x4 x5 x6 = logitsOf (val_main_v14 (F := F) x0 x1 x2 x5 x6) x3 x4 := rfl

theorem val19_eq (x0 : (⟨S50000x128, .f32⟩ : BufTy).Contents (Elt F)) (x1 : (⟨S128x128, .f32⟩ : BufTy).Contents (Elt F))
    (x2 : (⟨S128, .f32⟩ : BufTy).Contents (Elt F)) (x3 : (⟨S128x64, .f32⟩ : BufTy).Contents (Elt F))
    (x4 : (⟨S64, .f32⟩ : BufTy).Contents (Elt F)) (x5 x6 : (⟨S800000, .i32⟩ : BufTy).Contents (Elt F)) :
    val_main_v19 (F := F) x0 x1 x2 x3 x4 x5 x6 = lsmOf (val_main_v18 (F := F) x0 x1 x2 x3 x4 x5 x6) := rfl

/-! ## The buffers after each stretch, from any contents -/

section Stretches

variable (V : Valuation τ sig (Elt F))

theorem afterA_v4 : after opsA V (Proc.devRef .tc main_v4)
    = val_main_v4 (F := F) (V (Proc.devRef .tc main_arg0)) (V (Proc.devRef .tc main_arg1)) (V (Proc.devRef .tc main_arg2)) := by
  after_results_simp <;> rfl
theorem afterA_arg3 : after opsA V (Proc.devRef .tc main_arg3) = V (Proc.devRef .tc main_arg3) := by after_results_simp <;> rfl
theorem afterA_arg4 : after opsA V (Proc.devRef .tc main_arg4) = V (Proc.devRef .tc main_arg4) := by after_results_simp <;> rfl
theorem afterA_arg5 : after opsA V (Proc.devRef .tc main_arg5) = V (Proc.devRef .tc main_arg5) := by after_results_simp <;> rfl
theorem afterA_arg6 : after opsA V (Proc.devRef .tc main_arg6) = V (Proc.devRef .tc main_arg6) := by after_results_simp <;> rfl

theorem afterB_v14 : after opsB V (Proc.devRef .tc main_v14)
    = aggOf (V (Proc.devRef .tc main_v4)) (V (Proc.devRef .tc main_arg5)) (V (Proc.devRef .tc main_arg6)) := by
  after_results_simp <;> rfl
theorem afterB_arg3 : after opsB V (Proc.devRef .tc main_arg3) = V (Proc.devRef .tc main_arg3) := by after_results_simp <;> rfl
theorem afterB_arg4 : after opsB V (Proc.devRef .tc main_arg4) = V (Proc.devRef .tc main_arg4) := by after_results_simp <;> rfl

theorem afterC_v18 : after opsC V (Proc.devRef .tc main_v18)
    = logitsOf (V (Proc.devRef .tc main_v14)) (V (Proc.devRef .tc main_arg3)) (V (Proc.devRef .tc main_arg4)) := by
  after_results_simp <;> rfl

theorem afterD_v19 : after opsD V (Proc.devRef .tc main_v19) = lsmOf (V (Proc.devRef .tc main_v18)) := by
  rw [opsD_eq]
  after_results_simp <;> rfl

/-- The result buffer after all 39 operations, from any contents: the four stretches composed. -/
theorem after_ops_v19 : after ops V (Proc.devRef .tc main_v19)
    = val_main_v19 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5)) (V (Proc.devRef .tc main_arg6)) := by
  rw [ops_split, StableHlo.after_append, StableHlo.after_append, StableHlo.after_append,
    afterD_v19, afterC_v18, afterB_v14, afterB_arg3, afterB_arg4, afterA_v4, afterA_arg3, afterA_arg4, afterA_arg5, afterA_arg6,
    val19_eq, val18_eq, val14_eq]

end Stretches

/-! ## The run, with the result at the composed stages -/

/-- Every weakly fair execution of the reference terminates with the result buffer at the composed stages of the
    arguments' launch contents, and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = val_main_v19 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (after_ops_v19 (launchContents m c)), (h c).2⟩) (run m ρ)

end Cert.ReferenceIdeal.RefValue

end
-- ==== Proof.RefSpec.lean ====
/-
  The reference's stages, read index by index, are the specification.

  Its first stage, max(x·W1 + b1, 0) with the bias broadcast down the rows, is `hidden x W1 b1`. Its last stage takes the
  logits a·W2 + b2 of the aggregated array a, their row maxima (a reduce from −∞, once more the maximum with −∞, which
  changes nothing), shifts, exponentiates, sums each row from zero, takes the logarithm and subtracts: `out a W2 b2`.
-/
import proofs.«105534_j79379585564874_1_alg».proof.Proof.RefValue

noncomputable section

open scoped BigOperators

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.Spec Idealize.ShloMosaic.ValueIdx

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S128x64, .f32⟩ : BufTy).Contents (Elt Ideal))
  (x4 : (⟨S64, .f32⟩ : BufTy).Contents (Elt Ideal)) (x5 x6 : (⟨S800000, .i32⟩ : BufTy).Contents (Elt Ideal))

/-- The first stage is `hidden`. -/
theorem val4_hidden : val_main_v4 (F := Ideal) x0 x1 x2 = hidden x0 x1 x2 := by
  funext i
  obtain ⟨p, q, rfl⟩ : ∃ (p : Fin 50000) (q : Fin 128), i = ix2 p q := ⟨i 0, i 1, eq_ix2 i⟩
  rw [val_main_v4_apply, val_main_v3_apply, val_main_v0_apply, val_main_v2_apply, val_main_v1_apply,
    val_main_call0_v0_apply, val_main_call0_cst_apply, hidden_apply]
  unfold relu affine
  have hl : ∀ k : Fin 128, lidx_main_v0 (ix2 p q) k = ix2 p k := fun k =>
    funext fun a => Fin.ext (by match a with | ⟨0, _⟩ => rfl | ⟨1, _⟩ => rfl)
  have hr : ∀ k : Fin 128, ridx_main_v0 (ix2 p q) k = ix2 k q := fun k =>
    funext fun a => Fin.ext (by match a with | ⟨0, _⟩ => rfl | ⟨1, _⟩ => rfl)
  have hb : idx_main_v1 (idx_main_v2 (ix2 p q)) = ix1 q :=
    funext fun a => Fin.ext (by match a with | ⟨0, _⟩ => rfl)
  simp only [hl, hr, hb]
  rfl

/-- The logits at (p, j). -/
theorem logits_apply (p : Fin 50000) (j : Fin 64) :
    (val_main_v18 (F := Ideal) x0 x1 x2 x3 x4 x5 x6) (ix2 p j) = logits (val_main_v14 (F := Ideal) x0 x1 x2 x5 x6) x3 x4 p j := by
  rw [val_main_v18_apply, val_main_v15_apply, val_main_v17_apply, val_main_v16_apply]
  unfold logits affine
  have hl : ∀ k : Fin 128, lidx_main_v15 (ix2 p j) k = ix2 p k := fun k =>
    funext fun a => Fin.ext (by match a with | ⟨0, _⟩ => rfl | ⟨1, _⟩ => rfl)
  have hr : ∀ k : Fin 128, ridx_main_v15 (ix2 p j) k = ix2 k j := fun k =>
    funext fun a => Fin.ext (by match a with | ⟨0, _⟩ => rfl | ⟨1, _⟩ => rfl)
  have hb : idx_main_v16 (idx_main_v17 (ix2 p j)) = ix1 j :=
    funext fun a => Fin.ext (by match a with | ⟨0, _⟩ => rfl)
  simp only [hl, hr, hb]
  rfl

/-! ## The log-softmax stage on any array, read at an index -/

section AnyArray

variable {α : Type}

/-- A column broadcast across the 64 columns: entry (p, q) is the column's entry in row p. -/
theorem bc_col (y : S50000x1.Idx → α) (p : Fin 50000) (q : Fin 64) :
    broadcastInDim S50000x64 ![0, 1] bcast_S50000x1_S50000x64_0_1 y (ix2 p q) = y (ix2 p (0 : Fin 1)) :=
  broadcastInDim_apply _ bcast_S50000x1_S50000x64_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A vector of 50000 entries as one column: the column's entry in row p is the vector's entry p. -/
theorem bc_vec (y : S50000.Idx → α) (p : Fin 50000) :
    broadcastInDim S50000x1 ![0] bcast_S50000_S50000x1_0 y (ix2 p (0 : Fin 1)) = y (ix1 p) :=
  broadcastInDim_apply _ bcast_S50000_S50000x1_0 y (ix2 p (0 : Fin 1)) (ix1 p) (fun a => match a with
    | ⟨0, _⟩ => by show p.val = if (50000 : Nat) = 1 then 0 else p.val; rw [if_neg (by decide)])

/-- A scalar broadcast to 50000 entries is the scalar. -/
theorem bc_scalar (y : S_.Idx → α) (p : Fin 50000) :
    broadcastInDim S50000 ![] bcast_S_S50000 y (ix1 p) = y ix0 :=
  broadcastInDim_apply _ bcast_S_S50000 y (ix1 p) ix0 (fun a => a.elim0)

end AnyArray

section AnyLogits

variable (l : S50000x64.Idx → EReal)

/-- The fold of the ideal maximum is the fold of max. -/
theorem fold_maximumf {ι : Type} (s : Finset ι) (a : EReal) (g : ι → EReal) :
    s.fold (FloatOps.maximumf (F := Ideal) (φ := .f32)) a g = s.fold max a g := rfl

/-- The reduce with a maximum body over the columns of any array, at row p: the fold of max from the initial value. -/
theorem reduceMax_apply (w : BitVec 32) (p : Fin 50000) :
    Host.reduce (FloatOps.maximumf (F := Ideal) (φ := .f32)) l (constant (F := Ideal) S_ .f32 w) reducesTo_S50000x64_S50000_d1 h_S_ (ix1 p)
      = (Finset.univ : Finset (Fin 64)).fold max (Ideal.ofBits .f32 w) (fun j => l (ix2 p j)) := by
  have hred := Host.reduce_eq_fold_single (FloatOps.maximumf (F := Ideal) (φ := .f32)) l
    (constant (F := Ideal) S_ .f32 w) reducesTo_S50000x64_S50000_d1 (by decide) h_S_ (ix1 p)
  have hf : (l ∘ (by decide : S50000x64.Reduces [1] S50000).lift (ix1 p)) = fun j : Fin 64 => l (ix2 p j) :=
    funext fun j => congrArg l (lift_row _ p j)
  rw [hf, constant_apply] at hred
  exact hred.trans (fold_maximumf _ _ _)

/-- The reference's row maxima of any array: the fold of max from −∞ over the row (the second maximum with −∞ changes
    nothing). -/
theorem maxOf_apply (p : Fin 50000) : maxOf (F := Ideal) l (ix1 p) = rowMax (fun j => l (ix2 p j)) := by
  unfold maxOf rowMax
  rw [maximumf_apply, bc_scalar, constant_apply, reduceMax_apply]
  exact max_eq_right (by rw [Finset.le_fold_max]; exact Or.inl le_rfl)

/-- The shifted array at (p, j). -/
theorem shiftOf_apply (p : Fin 50000) (j : Fin 64) :
    shiftOf (F := Ideal) l (ix2 p j) = l (ix2 p j) - rowMax (fun j => l (ix2 p j)) := by
  unfold shiftOf
  show l (ix2 p j) - broadcastInDim S50000x64 ![0, 1] bcast_S50000x1_S50000x64_0_1
      (broadcastInDim S50000x1 ![0] bcast_S50000_S50000x1_0 (maxOf (F := Ideal) l)) (ix2 p j) = _
  rw [bc_col, bc_vec, maxOf_apply]

/-- The reference's row sums from zero of the exponentials of any array. -/
theorem expSum_apply (z : S50000x64.Idx → EReal) (p : Fin 50000) :
    Host.reduceAdd (Host.exp (F := Ideal) z) (constant (F := Ideal) S_ .f32 0x00000000#32) reducesTo_S50000x64_S50000_d1 h_S_ (ix1 p)
      = ∑ j : Fin 64, Ideal.exp (z (ix2 p j)) := by
  simp only [Host.reduceAdd, Ideal.hostReduceAdd_def]
  rw [Ideal.hostReduceAdd_single reducesTo_S50000x64_S50000_d1 (by decide)]
  show Ideal.ofBits .f32 0x00000000#32 + _ = _
  rw [Ideal.ofBits_zero_f32, zero_add]
  exact Finset.sum_congr rfl fun j _ => congrArg (fun i => Ideal.exp (z i)) (lift_row _ p j)

/-- The host logarithm of a column, entry by entry. -/
theorem hostLog_apply (y : FVec Ideal S50000x1 .f32) (i : S50000x1.Idx) : Host.log (F := Ideal) y i = Ideal.log (y i) := rfl

/-- The reference's log-softmax of any array at (p, q): the log-softmax of row p at q. -/
theorem lsmOf_apply (p : Fin 50000) (q : Fin 64) :
    lsmOf (F := Ideal) l (ix2 p q) = logSoftmax (fun j => l (ix2 p j)) q := by
  unfold lsmOf logSoftmax
  show shiftOf (F := Ideal) l (ix2 p q) - broadcastInDim S50000x64 ![0, 1] bcast_S50000x1_S50000x64_0_1
      (Host.log (broadcastInDim S50000x1 ![0] bcast_S50000_S50000x1_0
        (Host.reduceAdd (Host.exp (shiftOf (F := Ideal) l)) (constant (F := Ideal) S_ .f32 0x00000000#32) reducesTo_S50000x64_S50000_d1 h_S_))) (ix2 p q) = _
  rw [bc_col, hostLog_apply, bc_vec, expSum_apply, shiftOf_apply]
  simp only [shiftOf_apply]

end AnyLogits

/-- The last stage is `out` of the aggregated array: the log-softmax stage read on the logits, the logits read at an index. -/
theorem val19_out : val_main_v19 (F := Ideal) x0 x1 x2 x3 x4 x5 x6 = out (val_main_v14 (F := Ideal) x0 x1 x2 x5 x6) x3 x4 := by
  funext i
  obtain ⟨p, q, rfl⟩ : ∃ (p : Fin 50000) (q : Fin 64), i = ix2 p q := ⟨i 0, i 1, eq_ix2 i⟩
  refine (congrFun (val19_eq x0 x1 x2 x3 x4 x5 x6) (ix2 p q)).trans ?_
  refine (lsmOf_apply (val_main_v18 (F := Ideal) x0 x1 x2 x3 x4 x5 x6) p q).trans ?_
  rw [out_apply]
  exact congrArg (fun f => logSoftmax f q) (funext fun j => logits_apply x0 x1 x2 x3 x4 x5 x6 p j)

/-- The reference's result as the specification of its arguments. -/
theorem val19_spec : val_main_v19 (F := Ideal) x0 x1 x2 x3 x4 x5 x6 = out (aggOf (hidden x0 x1 x2) x5 x6) x3 x4 := by
  rw [val19_out, val14_eq, val4_hidden]

end Cert.ReferenceIdeal.RefValue

end
-- ==== Proof.lean ====
/-
  The kernel program computes what the reference computes, over the extended reals.

  Both programs are: a rectified affine layer h = max(x·W1 + b1, 0) on 50000 rows; an aggregation over 800000 edges,
  agg[i] = Σ over edges (s → i) of h[s], done by the same host gather and scatter-add in both; an affine layer
  a·W2 + b2 and a log-softmax along each row of 64 logits. The kernel program does the two dense stages in blocks of 5000
  rows (a matrix product into a zero accumulator, a bias row broadcast down the block, a lane maximum and a lane sum per
  row); the reference does them on the whole arrays (a dot product, broadcasts, a reduce from −∞ followed by one more
  maximum with −∞, a reduce-add from zero). At the ideal values a change of float format is the identity, a product into
  a zero accumulator is the plain sum, the extra maximum with −∞ changes nothing (the fold of max from −∞ is at least −∞),
  and every row of either dense stage depends on the same row of its input only, so the blocks of the kernel's result are
  the blocks of the reference's. No law of the extended reals beyond these is used, so the finiteness of the inputs is not.

  The frames: the two kernel programs' are the generated ones; the reference's is its run with the result dropped.
  Nothing was rewritten by the ideal pass, so `preserves` has nothing to state.
-/
import proofs.«105534_j79379585564874_1_alg».proof.Defs
import proofs.«105534_j79379585564874_1_alg».proof.Proof.Gen.Kernel
import proofs.«105534_j79379585564874_1_alg».proof.Proof.Gen.Kernel.Frame
import proofs.«105534_j79379585564874_1_alg».proof.Proof.Gen.KernelIdeal
import proofs.«105534_j79379585564874_1_alg».proof.Proof.Gen.KernelIdeal.Frame
import proofs.«105534_j79379585564874_1_alg».proof.Proof.Gen.ReferenceIdeal
import proofs.«105534_j79379585564874_1_alg».proof.Proof.Gen.Pre_finite_inputs
import proofs.«105534_j79379585564874_1_alg».proof.Proof.KernelResult
import proofs.«105534_j79379585564874_1_alg».proof.Proof.RefSpec
import Idealize.ShloMosaic.Adequacy
import Idealize.ShloMosaic.Init

noncomputable section

namespace Cert.Proof

open Idealize.ShloMosaic Idealize.SL.Sem

/-- The aggregation over edges is one function in both programs: the same host operations over dimension records that
    differ only in the proofs they carry. -/
theorem agg_eq (h : (⟨Cert.KernelIdeal.S50000x128, .f32⟩ : BufTy).Contents (Elt Ideal))
    (x5 x6 : (⟨Cert.KernelIdeal.S800000, .i32⟩ : BufTy).Contents (Elt Ideal)) :
    Cert.KernelIdeal.KValue.aggK (F := Ideal) h x5 x6 = Cert.ReferenceIdeal.RefValue.aggOf (F := Ideal) h x5 x6 := rfl

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run_val (F := Ideal) m ρ)

theorem preserves : Cert.preserves_Kernel_KernelIdeal := trivial

/-- Both runs end, the kernel program's result at `out (agg (hidden x W1 b1)) W2 b2` of its arguments and the reference's
    at the same function of arguments that agree. -/
theorem algebraic : Cert.algebraic_KernelIdeal_ReferenceIdeal := by
  intro m ρ m' ρ' _ hagree
  refine ⟨fun c => Cert.KernelIdeal.KValue.resultK m c, Cert.KernelIdeal.KValue.run_value m ρ, ?_⟩
  refine (θ_run Cert.ReferenceIdeal.defs _ _).mono (fun _ h c => ⟨(h c).1.trans ?_, (h c).2⟩)
    (Cert.ReferenceIdeal.RefValue.run_val (F := Ideal) m' ρ')
  obtain ⟨e0, e1, e2, e3, e4, e5, e6⟩ := hagree c
  rw [Cert.ReferenceIdeal.RefValue.val19_spec, e0, e1, e2, e3, e4, e5, e6]
  exact congrArg (fun a => Cert.Spec.out a _ _) (agg_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
